-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x48x48 : Shape := ⟨3, ![32, 48, 48]⟩
abbrev S32x512x512 : Shape := ⟨3, ![32, 512, 512]⟩
abbrev S32x512x1024 : Shape := ⟨3, ![32, 512, 1024]⟩
abbrev S_ : Shape := ⟨0, ![]⟩

class Facts : Prop where
  bcast_S_S32x48x48 : S_.BroadcastsInDim S32x48x48 (![] : Fin 0 → Fin S32x48x48.rank)
  reducesTo_S32x48x48_S_d0_1_2 : S32x48x48.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S32x512x1024 : S_.BroadcastsInDim S32x512x1024 (![] : Fin 0 → Fin S32x512x1024.rank)
  reducesTo_S32x512x1024_S_d0_1_2 : S32x512x1024.ReducesTo [0, 1, 2] S_

variable [Facts]

def fn_part1 {F : FTy → Type} [FloatOps F] (main_arg4 : FVec F S32x512x512 .f32) (main_arg5 : FVec F S32x512x512 .f32) (main_arg6 : FVec F S32x512x1024 .f32) (main_v13 : IVec S_ 1) (main_v16 : IVec S32x512x512 1) : IVec S_ 1 :=
  let main_c_5 : IVec S_ 1 := constantI S_ 1 1#1
  let main_v17 : IVec S_ 1 := (fun x v => Host.reduce IntOp.andi x v reducesTo_S32x512x512_S_d0_1_2 h_S_) main_v16 main_c_5
  let main_v18 : IVec S_ 1 := andi main_v13 main_v17
  let main_v19 : FVec F S32x512x512 .f32 := Host.absf main_arg4
  let main_cst_6 : FVec F S_ .f32 := constant S_ .f32 0x7F800000#32
  let main_v20 : FVec F S32x512x512 .f32 := broadcastInDim S32x512x512 ![] bcast_S_S32x512x512 main_cst_6
  let main_v21 : IVec S32x512x512 1 := cmpf .olt main_v19 main_v20
  let main_c_7 : IVec S_ 1 := constantI S_ 1 1#1
  let main_v22 : IVec S_ 1 := (fun x v => Host.reduce IntOp.andi x v reducesTo_S32x512x512_S_d0_1_2 h_S_) main_v21 main_c_7
  let main_v23 : IVec S_ 1 := andi main_v18 main_v22
  let main_v24 : FVec F S32x512x512 .f32 := Host.absf main_arg5
  let main_cst_8 : FVec F S_ .f32 := constant S_ .f32 0x7F800000#32
  let main_v25 : FVec F S32x512x512 .f32 := broadcastInDim S32x512x512 ![] bcast_S_S32x512x512 main_cst_8
  let main_v26 : IVec S32x512x512 1 := cmpf .olt main_v24 main_v25
  let main_c_9 : IVec S_ 1 := constantI S_ 1 1#1
  let main_v27 : IVec S_ 1 := (fun x v => Host.reduce IntOp.andi x v reducesTo_S32x512x512_S_d0_1_2 h_S_) main_v26 main_c_9
  let main_v28 : IVec S_ 1 := andi main_v23 main_v27
  let main_v29 : FVec F S32x512x1024 .f32 := Host.absf main_arg6
  let main_cst_10 : FVec F S_ .f32 := constant S_ .f32 0x7F800000#32
  let main_v30 : FVec F S32x512x1024 .f32 := broadcastInDim S32x512x1024 ![] bcast_S_S32x512x1024 main_cst_10
  let main_v31 : IVec S32x512x1024 1 := cmpf .olt main_v29 main_v30
  let main_c_11 : IVec S_ 1 := constantI S_ 1 1#1
  let main_v32 : IVec S_ 1 := (fun x v => Host.reduce IntOp.andi x v reducesTo_S32x512x1024_S_d0_1_2 h_S_) main_v31 main_c_11
  let main_v33 : IVec S_ 1 := andi main_v28 main_v32
  main_v33

def fn {F : FTy → Type} [FloatOps F] (main_arg0 : FVec F S32x48x48 .f32) (main_arg1 : FVec F S32x48x48 .f32) (main_arg2 : FVec F S32x48x48 .f32) (main_arg3 : FVec F S32x512x512 .f32) (main_arg4 : FVec F S32x512x512 .f32) (main_arg5 : FVec F S32x512x512 .f32) (main_arg6 : FVec F S32x512x1024 .f32) : IVec S_ 1 :=
  let main_v0 : FVec F S32x48x48 .f32 := Host.absf main_arg0
  let main_cst : FVec F S_ .f32 := constant S_ .f32 0x7F800000#32
  let main_v1 : FVec F S32x48x48 .f32 := broadcastInDim S32x48x48 ![] bcast_S_S32x48x48 main_cst
  let main_v2 : IVec S32x48x48 1 := cmpf .olt main_v0 main_v1
  let main_c : IVec S_ 1 := constantI S_ 1 1#1
  let main_v3 : IVec S_ 1 := (fun x v => Host.reduce IntOp.andi x v reducesTo_S32x48x48_S_d0_1_2 h_S_) main_v2 main_c
  let main_v4 : FVec F S32x48x48 .f32 := Host.absf main_arg1
  let main_cst_0 : FVec F S_ .f32 := constant S_ .f32 0x7F800000#32
  let main_v5 : FVec F S32x48x48 .f32 := broadcastInDim S32x48x48 ![] bcast_S_S32x48x48 main_cst_0
  let main_v6 : IVec S32x48x48 1 := cmpf .olt main_v4 main_v5
  let main_c_1 : IVec S_ 1 := constantI S_ 1 1#1
  let main_v7 : IVec S_ 1 := (fun x v => Host.reduce IntOp.andi x v reducesTo_S32x48x48_S_d0_1_2 h_S_) main_v6 main_c_1
  let main_v8 : IVec S_ 1 := andi main_v3 main_v7
  let main_v9 : FVec F S32x48x48 .f32 := Host.absf main_arg2
  let main_cst_2 : FVec F S_ .f32 := constant S_ .f32 0x7F800000#32
  let main_v10 : FVec F S32x48x48 .f32 := broadcastInDim S32x48x48 ![] bcast_S_S32x48x48 main_cst_2
  let main_v11 : IVec S32x48x48 1 := cmpf .olt main_v9 main_v10
  let main_c_3 : IVec S_ 1 := constantI S_ 1 1#1
  let main_v12 : IVec S_ 1 := (fun x v => Host.reduce IntOp.andi x v reducesTo_S32x48x48_S_d0_1_2 h_S_) main_v11 main_c_3
  let main_v13 : IVec S_ 1 := andi main_v8 main_v12
  let main_v14 : FVec F S32x512x512 .f32 := Host.absf main_arg3
  let main_cst_4 : FVec F S_ .f32 := constant S_ .f32 0x7F800000#32
  let main_v15 : FVec F S32x512x512 .f32 := broadcastInDim S32x512x512 ![] bcast_S_S32x512x512 main_cst_4
  let main_v16 : IVec S32x512x512 1 := cmpf .olt main_v14 main_v15
  fn_part1 (F := F) main_arg4 main_arg5 main_arg6 main_v13 main_v16
-- ==== Kernel.lean ====
abbrev S32x48x48 : Shape := ⟨3, ![32, 48, 48]⟩
abbrev S32x512x512 : Shape := ⟨3, ![32, 512, 512]⟩
abbrev S32x512x1024 : Shape := ⟨3, ![32, 512, 1024]⟩
abbrev S1x512x512 : Shape := ⟨3, ![1, 512, 512]⟩
abbrev S1x512x1024 : Shape := ⟨3, ![1, 512, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S32x48x48, .f32⟩
  | .hbm, ⟨1, _⟩ => ⟨S32x48x48, .f32⟩
  | .hbm, ⟨2, _⟩ => ⟨S32x48x48, .f32⟩
  | .hbm, ⟨3, _⟩ => ⟨S32x512x512, .f32⟩
  | .hbm, ⟨4, _⟩ => ⟨S32x512x512, .f32⟩
  | .hbm, ⟨5, _⟩ => ⟨S32x512x512, .f32⟩
  | .hbm, ⟨6, _⟩ => ⟨S32x512x1024, .f32⟩
  | .hbm, ⟨7, _⟩ => ⟨S32x512x1024, .f32⟩
  | .hbm, ⟨8, _⟩ => ⟨S32x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x512, .f32⟩
  | .local _ .vmem, ⟨13, _⟩ => ⟨S1x512x512, .f32⟩
  | _, _ => ⟨S32x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  broadcasts_S512x1_S512x1024 : S512x1.Broadcasts S512x1024
  shapeCasts_S512x1024_S1x512x1024 : S512x1024.ShapeCasts S1x512x1024
  reduces_S512x1024_S512 : S512x1024.Reduces [1] S512
  shapeCasts_S512x512_S1x512x512 : S512x512.ShapeCasts S1x512x512
  dot_S512x512_S512x512_S512x512_1_0_0_1_n_n_wf : DotDims.WF S512x512 S512x512 S512x512 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S32x512x1024.size a
  hwx0_4 : ∀ i : grid0.Coords, EltTy.bits .f32 = 32 ∨ (Rect.block (s := S32x512x1024) S1x512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x512x1024.size a
  hwx1_0 : ∀ i : grid1.Coords, EltTy.bits .f32 = 32 ∨ (Rect.block (s := S32x512x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S32x512x512.size a
  hwx1_1 : ∀ i : grid1.Coords, EltTy.bits .f32 = 32 ∨ (Rect.block (s := S32x512x512) S1x512x512.size (cc1_transform_1 i) (hinb1_1 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg3) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x48x48 : Shape := ⟨3, ![32, 48, 48]⟩
abbrev S32x512x512 : Shape := ⟨3, ![32, 512, 512]⟩
abbrev S32x512x1024 : Shape := ⟨3, ![32, 512, 1024]⟩
abbrev S48x48 : Shape := ⟨2, ![48, 48]⟩
abbrev S_ : Shape := ⟨0, ![]⟩
abbrev S1x48x48 : Shape := ⟨3, ![1, 48, 48]⟩
abbrev S512x512 : Shape := ⟨2, ![512, 512]⟩
abbrev S1x512x512 : Shape := ⟨3, ![1, 512, 512]⟩
abbrev S32x512 : Shape := ⟨2, ![32, 512]⟩
abbrev S32x512x1 : Shape := ⟨3, ![32, 512, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x48x48, .f32⟩
  | .hbm, ⟨1, _⟩ => ⟨S32x48x48, .f32⟩
  | .hbm, ⟨2, _⟩ => ⟨S32x48x48, .f32⟩
  | .hbm, ⟨3, _⟩ => ⟨S32x512x512, .f32⟩
  | .hbm, ⟨4, _⟩ => ⟨S32x512x512, .f32⟩
  | .hbm, ⟨5, _⟩ => ⟨S32x512x512, .f32⟩
  | .hbm, ⟨6, _⟩ => ⟨S32x512x1024, .f32⟩
  | .hbm, ⟨7, _⟩ => ⟨S48x48, .i32⟩
  | .hbm, ⟨8, _⟩ => ⟨S48x48, .i32⟩
  | .hbm, ⟨9, _⟩ => ⟨S_, .i32⟩
  | .hbm, ⟨10, _⟩ => ⟨S48x48, .i32⟩
  | .hbm, ⟨11, _⟩ => ⟨S48x48, .i32⟩
  | .hbm, ⟨12, _⟩ => ⟨S48x48, .i1⟩
  | .hbm, ⟨13, _⟩ => ⟨S48x48, .f32⟩
  | .hbm, ⟨14, _⟩ => ⟨S32x48x48, .f32⟩
  | .hbm, ⟨15, _⟩ => ⟨S32x48x48, .f32⟩
  | .hbm, ⟨16, _⟩ => ⟨S1x48x48, .f32⟩
  | .hbm, ⟨17, _⟩ => ⟨S32x48x48, .f32⟩
  | .hbm, ⟨18, _⟩ => ⟨S32x48x48, .f32⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .f32⟩
  | .hbm, ⟨26, _⟩ => ⟨S32x512x512, .f32⟩
  | .hbm, ⟨27, _⟩ => ⟨S32x512x512, .f32⟩
  | .hbm, ⟨28, _⟩ => ⟨S1x512x512, .f32⟩
  | .hbm, ⟨29, _⟩ => ⟨S32x512x512, .f32⟩
  | .hbm, ⟨30, _⟩ => ⟨S32x512x512, .f32⟩
  | .hbm, ⟨31, _⟩ => ⟨S32x512x1024, .f32⟩
  | .hbm, ⟨32, _⟩ => ⟨S_, .f32⟩
  | .hbm, ⟨33, _⟩ => ⟨S32x512x1024, .f32⟩
  | .hbm, ⟨34, _⟩ => ⟨S32x512x1024, .f32⟩
  | .hbm, ⟨35, _⟩ => ⟨S32x512x1024, .f32⟩
  | .hbm, ⟨36, _⟩ => ⟨S_, .f32⟩
  | .hbm, ⟨37, _⟩ => ⟨S32x512, .f32⟩
  | .hbm, ⟨38, _⟩ => ⟨S32x512x1, .f32⟩
  | .hbm, ⟨39, _⟩ => ⟨S_, .f32⟩
  | .hbm, ⟨40, _⟩ => ⟨S32x512x1, .f32⟩
  | .hbm, ⟨41, _⟩ => ⟨S32x512x1, .f32⟩
  | .hbm, ⟨42, _⟩ => ⟨S32x512x1024, .f32⟩
  | .hbm, ⟨43, _⟩ => ⟨S32x512x1024, .f32⟩
  | .hbm, ⟨44, _⟩ => ⟨S32x512x1024, .f32⟩
  | .hbm, ⟨45, _⟩ => ⟨S_, .f32⟩
  | .hbm, ⟨46, _⟩ => ⟨S32x512, .f32⟩
  | .hbm, ⟨47, _⟩ => ⟨S32x512x1, .f32⟩
  | .hbm, ⟨48, _⟩ => ⟨S32x512x1, .f32⟩
  | .hbm, ⟨49, _⟩ => ⟨S32x512x1024, .f32⟩
  | .hbm, ⟨50, _⟩ => ⟨S32x512x1024, .f32⟩
  | .hbm, ⟨51, _⟩ => ⟨S32x512x512, .f32⟩
  | _, _ => ⟨S32x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S_S48x48 : S_.BroadcastsInDim S48x48 (![] : Fin 0 → Fin S48x48.rank)
  bcast_S48x48_S1x48x48_1_2 : S48x48.BroadcastsInDim S1x48x48 (![1, 2] : Fin 2 → Fin S1x48x48.rank)
  bcast_S1x48x48_S32x48x48_0_1_2 : S1x48x48.BroadcastsInDim S32x48x48 (![0, 1, 2] : Fin 3 → Fin S32x48x48.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  bcast_S_S32x512x1024 : S_.BroadcastsInDim S32x512x1024 (![] : Fin 0 → Fin S32x512x1024.rank)
  reducesTo_S32x512x1024_S32x512_d2 : S32x512x1024.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S32x512x1_S32x512x1024_0_1_2 : S32x512x1.BroadcastsInDim S32x512x1024 (![0, 1, 2] : Fin 3 → Fin S32x512x1024.rank)
  dot_S32x48x48_S32x48x48_S32x48x48_1_2_2_1_0_0_wf : DotDims.WF S32x48x48 S32x48x48 S32x48x48 [1] [2] [2] [1] [0] [0]
  dot_S32x48x48_S32x48x48_S32x48x48_1_1_2_2_0_0_wf : DotDims.WF S32x48x48 S32x48x48 S32x48x48 [1] [1] [2] [2] [0] [0]
  dot_S32x512x512_S32x512x512_S32x512x512_1_2_2_1_0_0_wf : DotDims.WF S32x512x512 S32x512x512 S32x512x512 [1] [2] [2] [1] [0] [0]
  dot_S32x512x512_S32x512x512_S32x512x512_1_1_2_2_0_0_wf : DotDims.WF S32x512x512 S32x512x512 S32x512x512 [1] [1] [2] [2] [0] [0]
  dot_S32x512x512_S32x512x1024_S32x512x1024_2_1_1_2_0_0_wf : DotDims.WF S32x512x512 S32x512x1024 S32x512x1024 [2] [1] [1] [2] [0] [0]
  dot_S32x512x1024_S32x512x1024_S32x512x512_2_2_1_1_0_0_wf : DotDims.WF S32x512x1024 S32x512x1024 S32x512x512 [2] [2] [1] [1] [0] [0]

variable [Facts₀]

def dot_S32x48x48_S32x48x48_S32x48x48_1_2_2_1_0_0 : DotDims S32x48x48 S32x48x48 S32x48x48 where
  lhsContracting := [1]
  rhsContracting := [2]
  lhsNonContracting := [2]
  rhsNonContracting := [1]
  lhsBatch := [0]
  rhsBatch := [0]
  wf := dot_S32x48x48_S32x48x48_S32x48x48_1_2_2_1_0_0_wf
def dot_S32x48x48_S32x48x48_S32x48x48_1_1_2_2_0_0 : DotDims S32x48x48 S32x48x48 S32x48x48 where
  lhsContracting := [1]
  rhsContracting := [1]
  lhsNonContracting := [2]
  rhsNonContracting := [2]
  lhsBatch := [0]
  rhsBatch := [0]
  wf := dot_S32x48x48_S32x48x48_S32x48x48_1_1_2_2_0_0_wf
def dot_S32x512x512_S32x512x512_S32x512x512_1_2_2_1_0_0 : DotDims S32x512x512 S32x512x512 S32x512x512 where
  lhsContracting := [1]
  rhsContracting := [2]
  lhsNonContracting := [2]
  rhsNonContracting := [1]
  lhsBatch := [0]
  rhsBatch := [0]
  wf := dot_S32x512x512_S32x512x512_S32x512x512_1_2_2_1_0_0_wf
def dot_S32x512x512_S32x512x512_S32x512x512_1_1_2_2_0_0 : DotDims S32x512x512 S32x512x512 S32x512x512 where
  lhsContracting := [1]
  rhsContracting := [1]
  lhsNonContracting := [2]
  rhsNonContracting := [2]
  lhsBatch := [0]
  rhsBatch := [0]
  wf := dot_S32x512x512_S32x512x512_S32x512x512_1_1_2_2_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf
def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf

class Facts : Prop extends Facts₀ where

variable [Facts]
-- ==== Proof.Spec.lean ====
/-
  What the two programs compute, as functions of the argument arrays, index by index, on the extended reals.

  Stage one scales every row of `feat`: row r of batch c is multiplied by 1 + 0.3 · d(c, r), where d(c, r) is the
  (r, r) entry of the triple product Pb · Ev · W of batch c. One program brackets the product as Pb · (Ev · W)
  (`diagRight`), the other as (Pb · Ev) · W (`diagLeft`) and writes the scaling as 0.3 · (d · x) + x
  (`scaledRefAt`) instead of x · (1 + 0.3 · d) (`scaledAt`). Over real entries the two agree by distributivity;
  at infinite entries they need not, which is where finiteness of the inputs is used.

  Stage two is the same on both sides: each row is centred by its mean (the row sum divided by 1024), divided by
  the square root of its sum of squares (`Ideal.rsqrt`, with its conventions at 0 and ∞), and the result is the
  Gram matrix of the rows of each batch.

  Both programs select the diagonal by multiplying with a 0/1 mask and summing; `sum_mul_mask` and
  `sum_mask_mul` collapse such a sum to its one surviving term, on every extended real (x · 0 = 0 there).
-/
import Idealize.ShloMosaic.PureOps.Ideal
import Idealize.ShloMosaic.Lib.ValueIdx

noncomputable section

open scoped BigOperators

namespace Cert.Spec

open Idealize.ShloMosaic Idealize.ShloMosaic.ValueIdx

/-- A stack of 32 square matrices, 512 × 512. -/
abbrev Sq : Type := FVec Ideal ⟨3, ![32, 512, 512]⟩ .f32
/-- A stack of 32 wide matrices, 512 × 1024. -/
abbrev Wide : Type := FVec Ideal ⟨3, ![32, 512, 1024]⟩ .f32

/-- The single-precision word of 0.3, as both programs carry it. -/
abbrev c03 : EReal := Ideal.ofBits .f32 0x3E99999A#32
/-- The single-precision word of 1024. -/
abbrev c1024 : EReal := Ideal.ofBits .f32 0x44800000#32

/-- The (r, r) entry of Pb · (Ev · W) in batch c. -/
def diagRight (pb ev w : Sq) (c : Fin 32) (r : Fin 512) : EReal :=
  ∑ a : Fin 512, pb (ix3 c r a) * ∑ b : Fin 512, ev (ix3 c a b) * w (ix3 c b r)

/-- The (r, r) entry of (Pb · Ev) · W in batch c, each product written with its factors in the order the
    host contraction lists them. -/
def diagLeft (pb ev w : Sq) (c : Fin 32) (r : Fin 512) : EReal :=
  ∑ k : Fin 512, (∑ j : Fin 512, ev (ix3 c j k) * pb (ix3 c r j)) * w (ix3 c k r)

/-- Stage one as x · (1 + 0.3 · d). -/
def scaledAt (pb ev w : Sq) (feat : Wide) (c : Fin 32) (r : Fin 512) (k : Fin 1024) : EReal :=
  feat (ix3 c r k) * (1 + c03 * diagRight pb ev w c r)

def scaled (pb ev w : Sq) (feat : Wide) : Wide := fun i => scaledAt pb ev w feat (i 0) (i 1) (i 2)

/-- Stage one as 0.3 · (d · x) + x, with the product bracketed to the left. -/
def scaledRefAt (pb ev w : Sq) (feat : Wide) (c : Fin 32) (r : Fin 512) (k : Fin 1024) : EReal :=
  c03 * (diagLeft pb ev w c r * feat (ix3 c r k)) + feat (ix3 c r k)

def scaledRef (pb ev w : Sq) (feat : Wide) : Wide := fun i => scaledRefAt pb ev w feat (i 0) (i 1) (i 2)

/-- The mean of row r of batch c. -/
def rowMean (f : Wide) (c : Fin 32) (r : Fin 512) : EReal :=
  Ideal.div (∑ k : Fin 1024, f (ix3 c r k)) c1024

/-- Row r of batch c with its mean subtracted, at column k. -/
def centred (f : Wide) (c : Fin 32) (r : Fin 512) (k : Fin 1024) : EReal :=
  f (ix3 c r k) - rowMean f c r

/-- The centred row scaled by the reciprocal square root of its sum of squares. -/
def unitRow (f : Wide) (c : Fin 32) (r : Fin 512) (k : Fin 1024) : EReal :=
  centred f c r k * Ideal.rsqrt (∑ k' : Fin 1024, centred f c r k' * centred f c r k')

/-- The inner product of the normalised rows r and s of batch c. -/
def gramAt (f : Wide) (c : Fin 32) (r s : Fin 512) : EReal :=
  ∑ k : Fin 1024, unitRow f c r k * unitRow f c s k

def gram (f : Wide) : Sq := fun i => gramAt f (i 0) (i 1) (i 2)

theorem scaled_apply (pb ev w : Sq) (feat : Wide) (c : Fin 32) (r : Fin 512) (k : Fin 1024) :
    scaled pb ev w feat (ix3 c r k) = scaledAt pb ev w feat c r k := rfl

theorem scaledRef_apply (pb ev w : Sq) (feat : Wide) (c : Fin 32) (r : Fin 512) (k : Fin 1024) :
    scaledRef pb ev w feat (ix3 c r k) = scaledRefAt pb ev w feat c r k := rfl

theorem gram_apply (f : Wide) (c : Fin 32) (r s : Fin 512) : gram f (ix3 c r s) = gramAt f c r s := rfl

/-- A sum against the mask [r = j] keeps the term at j = r. -/
theorem sum_mul_mask {n : ℕ} (X : Fin n → EReal) (r : Fin n) :
    ∑ j : Fin n, X j * (if r = j then (1 : EReal) else 0) = X r := by
  rw [Finset.sum_eq_single r]
  · rw [if_pos rfl, mul_one]
  · intro j _ hj
    rw [if_neg (fun h => hj h.symm), mul_zero]
  · intro h; exact absurd (Finset.mem_univ r) h

/-- The same with a further factor after the mask. -/
theorem sum_mask_mul {n : ℕ} (X Y : Fin n → EReal) (r : Fin n) :
    ∑ j : Fin n, (X j * (if r = j then (1 : EReal) else 0)) * Y j = X r * Y r := by
  rw [Finset.sum_eq_single r]
  · rw [if_pos rfl, mul_one]
  · intro j _ hj
    rw [if_neg (fun h => hj h.symm), mul_zero, zero_mul]
  · intro h; exact absurd (Finset.mem_univ r) h

end Cert.Spec

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.Region0Value.lean ====
/-
  The first region's output array. Each of the 32 grid points reads batch t of Pb, Ev, W and feat and writes batch t
  of the output. At one entry the body's arithmetic is feat(r, k) · (1 + 0.3 · d(r)), where d(r) is the masked row
  sum of Pb · (Ev · W): the mask [r = j] keeps the (r, r) entry, each product into zero is the plain sum over its
  contracted axis, and narrowing a factor changes nothing on the extended reals. Every window's block index at
  point t is (t, 0, 0), so what point t writes is block t of stage one of the arrays, and the 32 blocks cover the output.
-/
import proofs.«159897_j1949915152710_1_alg».proof.Proof.Gen.KernelIdeal.Frame
import proofs.«159897_j1949915152710_1_alg».proof.Proof.Spec
import proofs.«159897_j1949915152710_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

private theorem lhs_row (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem lhs_col (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
private theorem rhs_row (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
private theorem rhs_col (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A product of two 512 × 512 matrices accumulated into zero reads, at (r, j), the sum over k of the left factor
    at (r, k) times the right factor at (k, j). -/
private theorem prod_apply {φ₁ φ₂ : FTy} (A : FVec Ideal S512x512 φ₁) (B : FVec Ideal S512x512 φ₂) (r j : Fin 512) :
    matmul dot_S512x512_S512x512_S512x512_1_0_0_1_n_n none A B (constant S512x512 .f32 0x00000000#32) (ix2 r j)
      = ∑ k : Fin 512, A (ix2 r k) * B (ix2 k j) := by
  show FloatOps.matmul dot_S512x512_S512x512_S512x512_1_0_0_1_n_n none A B (constant S512x512 .f32 0x00000000#32) (ix2 r j) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r j) ((contrEquiv1 dot_S512x512_S512x512_S512x512_1_0_0_1_n_n 512 rfl rfl).symm k) = ix2 r k := funext fun a => Fin.ext (by
    match a with
    | ⟨0, _⟩ => exact lhs_row _ _
    | ⟨1, _⟩ => exact (lhs_col _ _).trans hk)
  have er : dot_S512x512_S512x512_S512x512_1_0_0_1_n_n.rhsIdx (ix2 r j) ((contrEquiv1 dot_S512x512_S512x512_S512x512_1_0_0_1_n_n 512 rfl rfl).symm k) = ix2 k j := funext fun a => Fin.ext (by
    match a with
    | ⟨0, _⟩ => exact (rhs_row _ _).trans hk
    | ⟨1, _⟩ => exact rhs_col _ _)
  rw [el, er]

/-- The comparison of the row number with the column number, widened and converted, reads 1 on the diagonal and 0
    off it: both numbers are below 512, so they are equal as 32-bit words exactly when they are equal. -/
private theorem mask_apply (h0 : S512x512.Iotas .tc 32 [0]) (h1 : S512x512.Iotas .tc 32 [1]) (hlt : 1 < 32) (r j : Fin 512) :
    (sitofp .f32 (extui 32 (cmpi .eq (iota .tc S512x512 32 [0] h0) (iota .tc S512x512 32 [1] h1)) hlt) : FVec Ideal S512x512 .f32) (ix2 r j)
      = if r = j then (1 : EReal) else 0 := by
  rw [sitofp_apply, extui_apply]
  show FloatOps.sitofp (F := Ideal) .f32 ((IntOp.cmpi .eq (iota .tc S512x512 32 [0] h0 (ix2 r j)) (iota .tc S512x512 32 [1] h1 (ix2 r j))).setWidth 32) = _
  rw [iota_single_apply, iota_single_apply]
  show ((((IntOp.cmpi .eq (BitVec.ofNat 32 r.val) (BitVec.ofNat 32 j.val)).setWidth 32).toInt : ℝ) : EReal) = _
  by_cases h : r = j
  · subst h
    rw [if_pos rfl]
    simp [IntOp.cmpi]
  · rw [if_neg h]
    have hne : BitVec.ofNat 32 r.val ≠ BitVec.ofNat 32 j.val := by
      intro e
      have e' := congrArg BitVec.toNat e
      rw [BitVec.toNat_ofNat, BitVec.toNat_ofNat] at e'
      have hr := r.isLt
      have hj := j.isLt
      exact h (Fin.ext (by omega))
    have hb : (BitVec.ofNat 32 r.val == BitVec.ofNat 32 j.val) = false := beq_eq_false_iff_ne.mpr hne
    simp [IntOp.cmpi, hb]

/-- The masked row sum keeps the diagonal entry of the triple product: row r of A · (B · C) against the mask
    [r = j], summed over j, is the (r, r) entry, the sum over a of A(r, a) times the sum over b of B(a, b) · C(b, r).
    The narrowing of each factor is the identity on the extended reals. -/
private theorem diag_sum (A B C : FVec Ideal S512x512 .f32) (hb : FTy.bits .bf16 < FTy.bits .f32)
    (h0 : S512x512.Iotas .tc 32 [0]) (h1 : S512x512.Iotas .tc 32 [1]) (hlt : 1 < 32) (r : Fin 512) :
    ∑ j : Fin 512, mulf
        (matmul dot_S512x512_S512x512_S512x512_1_0_0_1_n_n none (truncf .bf16 A hb)
          (truncf .bf16 (matmul dot_S512x512_S512x512_S512x512_1_0_0_1_n_n none (truncf .bf16 B hb) (truncf .bf16 C hb)
            (constant S512x512 .f32 0x00000000#32)) hb)
          (constant S512x512 .f32 0x00000000#32))
        (sitofp .f32 (extui 32 (cmpi .eq (iota .tc S512x512 32 [0] h0) (iota .tc S512x512 32 [1] h1)) hlt)) (ix2 r j)
      = ∑ a : Fin 512, A (ix2 r a) * ∑ b : Fin 512, B (ix2 a b) * C (ix2 b r) := by
  have hm : ∀ j : Fin 512, mulf
        (matmul dot_S512x512_S512x512_S512x512_1_0_0_1_n_n none (truncf .bf16 A hb)
          (truncf .bf16 (matmul dot_S512x512_S512x512_S512x512_1_0_0_1_n_n none (truncf .bf16 B hb) (truncf .bf16 C hb)
            (constant S512x512 .f32 0x00000000#32)) hb)
          (constant S512x512 .f32 0x00000000#32))
        (sitofp .f32 (extui 32 (cmpi .eq (iota .tc S512x512 32 [0] h0) (iota .tc S512x512 32 [1] h1)) hlt)) (ix2 r j)
      = (∑ a : Fin 512, A (ix2 r a) * ∑ b : Fin 512, B (ix2 a b) * C (ix2 b j)) * (if r = j then (1 : EReal) else 0) := by
    intro j
    rw [mulf_apply, mask_apply, prod_apply]
    refine congrArg (· * _) (Finset.sum_congr rfl fun a _ => ?_)
    rw [truncf_apply, truncf_apply, prod_apply]
    refine congrArg (_ * ·) (Finset.sum_congr rfl fun b _ => ?_)
    rw [truncf_apply, truncf_apply]
  rw [Finset.sum_congr rfl fun j _ => hm j]
  exact Cert.Spec.sum_mul_mask (fun j : Fin 512 => ∑ a : Fin 512, A (ix2 r a) * ∑ b : Fin 512, B (ix2 a b) * C (ix2 b j)) r

/-- The body's arithmetic at one entry: row r of the feature block is multiplied by one plus 0.3 times the (r, r)
    entry of Pb · (Ev · W), the three square blocks read with their leading unit axis dropped. -/
private theorem pay_apply (x0 x1 x2 : Vec Ideal S1x512x512 .f32) (x3 : Vec Ideal S1x512x1024 .f32) (u : Fin 1) (r : Fin 512) (k : Fin 1024) :
    k0_pay1 x0 x1 x2 x3 (ix3 u r k) = x3 (ix3 0 r k) * (1 + Cert.Spec.c03 * ∑ a : Fin 512, x0 (ix3 0 r a) * ∑ b : Fin 512, x1 (ix3 0 a b) * x2 (ix3 0 b r)) := by
  unfold k0_pay1
  rw [shapeCast_ab_1ab_apply, mulf_apply, shapeCast_1ab_ab_apply, Cert.LibKeepdims.bcast_col, addf_apply, broadcast_apply, mulf_apply,
    broadcast_apply, Cert.LibKeepdims.cast_vec_col]
  refine congrArg (fun z : EReal => x3 (ix3 0 r k) * z) ?_
  refine congrArg₂ (fun y z : EReal => y + z) Cert.LibKeepdims.ofBits_one_f32 ?_
  refine congrArg (fun z : EReal => Cert.Spec.c03 * z) ?_
  refine (Cert.LibKeepdims.sum_row _ _ _ _ r).trans ?_
  refine (diag_sum _ _ _ _ _ _ _ r).trans ?_
  simp only [shapeCast_1ab_ab_apply]

/-- The zero offsets of an access to a whole block, as a function. -/
private theorem hz : (![0, 0, 0] : Fin 3 → Nat) = fun _ => 0 := funext fun a => by fin_cases a <;> rfl

/-- The index maps, decided over the 32 grid points: at point t every window's block index is (t, 0, 0). -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- At one entry of a block: when the four blocks are batch cb of the four arrays, the body's result at (u, r, k)
    is stage one of the arrays at (cb, r, k). -/
private theorem point_eq (pb ev w : Cert.Spec.Sq) (feat : Cert.Spec.Wide) (cb : Fin 32)
    (x0 x1 x2 : Vec Ideal S1x512x512 .f32) (x3 : Vec Ideal S1x512x1024 .f32)
    (h0 : ∀ r a : Fin 512, x0 (ix3 0 r a) = pb (ix3 cb r a))
    (h1 : ∀ a b : Fin 512, x1 (ix3 0 a b) = ev (ix3 cb a b))
    (h2 : ∀ b r : Fin 512, x2 (ix3 0 b r) = w (ix3 cb b r))
    (h3 : ∀ (r : Fin 512) (k : Fin 1024), x3 (ix3 0 r k) = feat (ix3 cb r k))
    (j : S1x512x1024.Idx) :
    k0_pay1 x0 x1 x2 x3 j = Cert.Spec.scaledAt pb ev w feat cb (j 1) (j 2) := by
  obtain ⟨u, r, k, rfl⟩ : ∃ (u : Fin 1) (r : Fin 512) (k : Fin 1024), j = ix3 u r k := ⟨j 0, j 1, j 2, eq_ix3 j⟩
  show k0_pay1 x0 x1 x2 x3 (ix3 u r k) = Cert.Spec.scaledAt pb ev w feat cb r k
  rw [pay_apply, h3]
  unfold Cert.Spec.scaledAt Cert.Spec.diagRight
  simp only [h0, h1, h2]

/-- What grid point t writes back is block t of stage one of the four arrays as the region finds them: every window's
    block index at t is (t, 0, 0), so entry (u, r, k) of each block is entry (t, r, k) of its array. -/
private theorem flushed_eq (c : Dev nD) (t : Fin cfg0.N) :
    (dat0 (F := Ideal) V c).flushed 4 t
      = ((cfg0.win 4).blk t).view.read (Elt Ideal)
          (Cert.Spec.scaled (V c main_arg3) (V c main_arg4) (V c main_arg5) (V c main_arg6)) := by
  show (cfg0.win 4).cut (grid0.coords t) ((dat0 V c).after 4 t) = _
  rw [after0_4]
  unfold out0_4
  rw [View.canon_unit_zero hz]
  simp only [View.ld_unit_zero (S := S1x512x512) hz, View.ld_unit_zero (S := S1x512x1024) hz]
  obtain ⟨a00, a01, a02, a10, a11, a12, a20, a21, a22, a30, a31, a32, a40, a41, a42⟩ := idx_facts t
  have ht : t.val < 32 := lt_of_lt_of_eq t.isLt N_0
  have h0 : ∀ r a : Fin 512, iblk0 V c 0 t (ix3 0 r a) = V c main_arg3 (ix3 (⟨t.val, ht⟩ : Fin 32) r a) := fun r a => by
    show V c main_arg3 (((cfg0.win 0).blk t).view.emb (ix3 0 r a)) = _
    refine congrArg (V c main_arg3) (funext fun x => Fin.ext ?_)
    match x with
    | ⟨0, _⟩ => show win0_0.index t (0 : Fin 3) * 1 + 1 * 0 = t.val; omega
    | ⟨1, _⟩ => show win0_0.index t (1 : Fin 3) * 512 + 1 * r.val = r.val; omega
    | ⟨2, _⟩ => show win0_0.index t (2 : Fin 3) * 512 + 1 * a.val = a.val; omega
  have h1 : ∀ a b : Fin 512, iblk0 V c 1 t (ix3 0 a b) = V c main_arg4 (ix3 (⟨t.val, ht⟩ : Fin 32) a b) := fun a b => by
    show V c main_arg4 (((cfg0.win 1).blk t).view.emb (ix3 0 a b)) = _
    refine congrArg (V c main_arg4) (funext fun x => Fin.ext ?_)
    match x with
    | ⟨0, _⟩ => show win0_1.index t (0 : Fin 3) * 1 + 1 * 0 = t.val; omega
    | ⟨1, _⟩ => show win0_1.index t (1 : Fin 3) * 512 + 1 * a.val = a.val; omega
    | ⟨2, _⟩ => show win0_1.index t (2 : Fin 3) * 512 + 1 * b.val = b.val; omega
  have h2 : ∀ b r : Fin 512, iblk0 V c 2 t (ix3 0 b r) = V c main_arg5 (ix3 (⟨t.val, ht⟩ : Fin 32) b r) := fun b r => by
    show V c main_arg5 (((cfg0.win 2).blk t).view.emb (ix3 0 b r)) = _
    refine congrArg (V c main_arg5) (funext fun x => Fin.ext ?_)
    match x with
    | ⟨0, _⟩ => show win0_2.index t (0 : Fin 3) * 1 + 1 * 0 = t.val; omega
    | ⟨1, _⟩ => show win0_2.index t (1 : Fin 3) * 512 + 1 * b.val = b.val; omega
    | ⟨2, _⟩ => show win0_2.index t (2 : Fin 3) * 512 + 1 * r.val = r.val; omega
  have h3 : ∀ (r : Fin 512) (k : Fin 1024), iblk0 V c 3 t (ix3 0 r k) = V c main_arg6 (ix3 (⟨t.val, ht⟩ : Fin 32) r k) := fun r k => by
    show V c main_arg6 (((cfg0.win 3).blk t).view.emb (ix3 0 r k)) = _
    refine congrArg (V c main_arg6) (funext fun x => Fin.ext ?_)
    match x with
    | ⟨0, _⟩ => show win0_3.index t (0 : Fin 3) * 1 + 1 * 0 = t.val; omega
    | ⟨1, _⟩ => show win0_3.index t (1 : Fin 3) * 512 + 1 * r.val = r.val; omega
    | ⟨2, _⟩ => show win0_3.index t (2 : Fin 3) * 1024 + 1 * k.val = k.val; omega
  funext j
  have he : ((cfg0.win 4).blk t).view.emb j = (ix3 (⟨t.val, ht⟩ : Fin 32) (j 1) (j 2) : S32x512x1024.Idx) := funext fun x => Fin.ext (by
    match x with
    | ⟨0, _⟩ => show win0_4.index t (0 : Fin 3) * 1 + 1 * (j 0).val = t.val; have hj : (j 0).val < 1 := (j 0).isLt; omega
    | ⟨1, _⟩ => show win0_4.index t (1 : Fin 3) * 512 + 1 * (j 1).val = (j 1).val; omega
    | ⟨2, _⟩ => show win0_4.index t (2 : Fin 3) * 1024 + 1 * (j 2).val = (j 2).val; omega)
  show k0_pay1 (iblk0 V c 0 t) (iblk0 V c 1 t) (iblk0 V c 2 t) (iblk0 V c 3 t) j
      = Cert.Spec.scaled (V c main_arg3) (V c main_arg4) (V c main_arg5) (V c main_arg6) (((cfg0.win 4).blk t).view.emb j)
  rw [he]
  exact point_eq (V c main_arg3) (V c main_arg4) (V c main_arg5) (V c main_arg6) ⟨t.val, ht⟩
    (iblk0 V c 0 t) (iblk0 V c 1 t) (iblk0 V c 2 t) (iblk0 V c 3 t) h0 h1 h2 h3 j

/-- An index of the output array is in point t's block exactly when each coordinate is in the block's range on its axis. -/
private theorem mem_blk (t : Fin cfg0.N) (i : S32x512x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v0).slice (win0_4.rect t)).set ↔ _
  rw [View.set_slice_whole, Rect.mem_set_unit]
  exact Iff.rfl

/-- After the first region, whatever contents `V` it was entered from, its output array holds stage one of the
    four arrays it reads: every row of `feat` scaled by 1 + 0.3 · (Pb · (Ev · W))(r, r). -/
theorem array_eq (c : Dev nD) :
    (dat0 (F := Ideal) V c).arrAt 4 cfg0.N
      = Cert.Spec.scaled (V c main_arg3) (V c main_arg4) (V c main_arg5) (V c main_arg6) := by
  refine (dat0 (F := Ideal) V c).arrAt_eq_of_cover 4 _ (fun t _ => flushed_eq V c t) fun i => ?_
  have hi0 : (i 0).val < 32 := (i 0).isLt
  have hi1 : (i 1).val < 512 := (i 1).isLt
  have hi2 : (i 2).val < 1024 := (i 2).isLt
  obtain ⟨-, -, -, -, -, -, -, -, -, -, -, -, a40, a41, a42⟩ := idx_facts ⟨(i 0).val, lt_of_lt_of_eq hi0 N_0.symm⟩
  refine ⟨⟨(i 0).val, lt_of_lt_of_eq hi0 N_0.symm⟩, flush0_4 _, ?_⟩
  rw [mem_blk]
  intro a
  match a with
  | ⟨0, _⟩ => show win0_4.index ⟨(i 0).val, lt_of_lt_of_eq hi0 N_0.symm⟩ (0 : Fin 3) * 1 ≤ (i 0).val ∧ (i 0).val < win0_4.index ⟨(i 0).val, lt_of_lt_of_eq hi0 N_0.symm⟩ (0 : Fin 3) * 1 + 1
              have e : (⟨(i 0).val, lt_of_lt_of_eq hi0 N_0.symm⟩ : Fin cfg0.N).val = (i 0).val := rfl
              omega
  | ⟨1, _⟩ => show win0_4.index ⟨(i 0).val, lt_of_lt_of_eq hi0 N_0.symm⟩ (1 : Fin 3) * 512 ≤ (i 1).val ∧ (i 1).val < win0_4.index ⟨(i 0).val, lt_of_lt_of_eq hi0 N_0.symm⟩ (1 : Fin 3) * 512 + 512
              omega
  | ⟨2, _⟩ => show win0_4.index ⟨(i 0).val, lt_of_lt_of_eq hi0 N_0.symm⟩ (2 : Fin 3) * 1024 ≤ (i 2).val ∧ (i 2).val < win0_4.index ⟨(i 0).val, lt_of_lt_of_eq hi0 N_0.symm⟩ (2 : Fin 3) * 1024 + 1024
              omega

end Cert.KernelIdeal.Region0

end
-- ==== Proof.Region1Value.lean ====
/-
  The second region's output array is the stack of Gram matrices of the normalised rows of the array it reads.
  At a grid point the body takes one batch (512 rows of 1024), subtracts each row's mean, scales the row by the
  reciprocal square root of its sum of squares, and multiplies the matrix by its own transpose: at (r, s) that is the
  inner product of the normalised rows r and s (`pay_apply`). Point t reads and writes batch t, so it writes back
  block t of `Cert.Spec.gram` of the array read (`flushed_eq`), and the 32 blocks tile the output (`covered`).
-/
import proofs.«159897_j1949915152710_1_alg».proof.Proof.Gen.KernelIdeal.Frame
import proofs.«159897_j1949915152710_1_alg».proof.Proof.Spec
import proofs.«159897_j1949915152710_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic, read at an index -/

/-- A matrix's row means as a full matrix: the keepdims column of row sums over 1024, broadcast back, reads at
    (r, k) the sum of row r divided by 1024. -/
private theorem meanCol_apply (y : FVec Ideal S512x1024 .f32) (r : Fin 512) (k : Fin 1024) :
    broadcastTo S512x1024
        (divf (shapeCast S512x1 (multiReduction (F := Ideal) .add [1] S512 y 0x00000000#32 reduces_S512x1024_S512 (.inl rfl) rfl)
            shapeCasts_S512_S512x1) (broadcast S512x1 (Scalar.ofBits (F := Ideal) .f32 0x44800000#32)))
        broadcasts_S512x1_S512x1024 (ix2 r k)
      = Ideal.div (∑ k' : Fin 1024, y (ix2 r k')) Cert.Spec.c1024 := by
  refine (Cert.LibKeepdims.bcast_col _ broadcasts_S512x1_S512x1024 r k).trans ?_
  rw [divf_apply, broadcast_apply]
  refine congrArg (fun z => Ideal.div z _) ?_
  refine (Cert.LibKeepdims.cast_vec_col _ shapeCasts_S512_S512x1 r (0 : Fin 1)).trans ?_
  exact Cert.LibKeepdims.sum_row y reduces_S512x1024_S512 (.inl rfl) rfl r

/-- The reciprocal square root of a matrix's row sums as a full matrix, read at (r, k). -/
private theorem rsqrtCol_apply (z : FVec Ideal S512x1024 .f32) (r : Fin 512) (k : Fin 1024) :
    broadcastTo S512x1024
        (rsqrt (shapeCast S512x1 (multiReduction (F := Ideal) .add [1] S512 z 0x00000000#32 reduces_S512x1024_S512 (.inl rfl) rfl)
            shapeCasts_S512_S512x1))
        broadcasts_S512x1_S512x1024 (ix2 r k)
      = Ideal.rsqrt (∑ k' : Fin 1024, z (ix2 r k')) := by
  refine (Cert.LibKeepdims.bcast_col _ broadcasts_S512x1_S512x1024 r k).trans ?_
  show Ideal.rsqrt _ = _
  refine congrArg Ideal.rsqrt ?_
  refine (Cert.LibKeepdims.cast_vec_col _ shapeCasts_S512_S512x1 r (0 : Fin 1)).trans ?_
  exact Cert.LibKeepdims.sum_row z reduces_S512x1024_S512 (.inl rfl) rfl r

/-! The product contracts the columns of BOTH operands: the left index at (r, s) and column k is (r, k), the right
    one (s, k). -/

private theorem lhs_gram_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
private theorem lhs_gram_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
private theorem rhs_gram_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
private theorem rhs_gram_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product of a matrix with its own transpose, accumulated into zero, reads at (r, s) the inner product of
    rows r and s. -/
private theorem gramMat_apply (w : FVec Ideal S512x1024 .bf16) (r s : Fin 512) :
    matmul dot_S512x1024_S512x1024_S512x512_1_1_0_0_n_n none w w (constant (F := Ideal) S512x512 .f32 0x00000000#32) (ix2 r s)
      = ∑ k : Fin 1024, w (ix2 r k) * w (ix2 s k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r s) ((ValueIdx.contrEquiv1 dot_S512x1024_S512x1024_S512x512_1_1_0_0_n_n 1024 rfl rfl).symm k) = ix2 r k := funext fun a => Fin.ext (by
    match a with
    | ⟨0, _⟩ => exact lhs_gram_0 _ _
    | ⟨1, _⟩ => exact (lhs_gram_1 _ _).trans hk)
  have er : dot_S512x1024_S512x1024_S512x512_1_1_0_0_n_n.rhsIdx (ix2 r s) ((ValueIdx.contrEquiv1 dot_S512x1024_S512x1024_S512x512_1_1_0_0_n_n 1024 rfl rfl).symm k) = ix2 s k := funext fun a => Fin.ext (by
    match a with
    | ⟨0, _⟩ => exact rhs_gram_0 _ _
    | ⟨1, _⟩ => exact (rhs_gram_1 _ _).trans hk)
  rw [el, er]

/-- The block's 512 rows as a matrix. -/
private def rowsOf (x0 : Vec Ideal S1x512x1024 .f32) : FVec Ideal S512x1024 .f32 :=
  shapeCast S512x1024 x0 shapeCasts_S1x512x1024_S512x1024

/-- The rows with their means subtracted. -/
private def centredOf (x0 : Vec Ideal S1x512x1024 .f32) : FVec Ideal S512x1024 .f32 :=
  subf (rowsOf x0)
    (broadcastTo S512x1024
      (divf (shapeCast S512x1 (multiReduction (F := Ideal) .add [1] S512 (rowsOf x0) 0x00000000#32 reduces_S512x1024_S512 (.inl rfl) rfl)
          shapeCasts_S512_S512x1) (broadcast S512x1 (Scalar.ofBits (F := Ideal) .f32 0x44800000#32)))
      broadcasts_S512x1_S512x1024)

/-- The centred rows scaled by the reciprocal square root of their sums of squares. -/
private def unitOf (x0 : Vec Ideal S1x512x1024 .f32) : FVec Ideal S512x1024 .f32 :=
  mulf (centredOf x0)
    (broadcastTo S512x1024
      (rsqrt (shapeCast S512x1 (multiReduction (F := Ideal) .add [1] S512 (mulf (centredOf x0) (centredOf x0)) 0x00000000#32 reduces_S512x1024_S512 (.inl rfl) rfl)
          shapeCasts_S512_S512x1))
      broadcasts_S512x1_S512x1024)

/-- The body's result is the product of the normalised rows with their transpose, as one block. -/
private theorem pay_eq (x0 : Vec Ideal S1x512x1024 .f32) :
    k1_pay1 (F := Ideal) x0
      = shapeCast S1x512x512
          (matmul dot_S512x1024_S512x1024_S512x512_1_1_0_0_n_n none (truncf .bf16 (unitOf x0) bitsLt_bf16_f32) (truncf .bf16 (unitOf x0) bitsLt_bf16_f32)
            (constant (F := Ideal) S512x512 .f32 0x00000000#32))
          shapeCasts_S512x512_S1x512x512 := rfl

private theorem rowsOf_apply (x0 : Vec Ideal S1x512x1024 .f32) (r : Fin 512) (k : Fin 1024) :
    rowsOf x0 (ix2 r k) = x0 (ix3 (0 : Fin 1) r k) :=
  shapeCast_1ab_ab_apply x0 shapeCasts_S1x512x1024_S512x1024 r k

section AtBatch

variable (x0 : Vec Ideal S1x512x1024 .f32) (f : Cert.Spec.Wide) (b : Fin 32)
  (hx : ∀ (r : Fin 512) (k : Fin 1024), x0 (ix3 (0 : Fin 1) r k) = f (ix3 b r k))
include hx

private theorem centredOf_apply (r : Fin 512) (k : Fin 1024) :
    centredOf x0 (ix2 r k) = Cert.Spec.centred f b r k := by
  unfold centredOf Cert.Spec.centred Cert.Spec.rowMean
  refine (congrArg₂ (· - ·) (rowsOf_apply x0 r k) (meanCol_apply (rowsOf x0) r k)).trans ?_
  have hs : ∑ k' : Fin 1024, rowsOf x0 (ix2 r k') = ∑ k' : Fin 1024, f (ix3 b r k') :=
    Finset.sum_congr rfl fun k' _ => (rowsOf_apply x0 r k').trans (hx r k')
  rw [hs, hx r k]

private theorem unitOf_apply (r : Fin 512) (k : Fin 1024) :
    unitOf x0 (ix2 r k) = Cert.Spec.unitRow f b r k := by
  unfold unitOf Cert.Spec.unitRow
  refine (congrArg₂ (· * ·) (centredOf_apply x0 f b hx r k)
    (rsqrtCol_apply (mulf (centredOf x0) (centredOf x0)) r k)).trans ?_
  have hs : ∑ k' : Fin 1024, mulf (centredOf x0) (centredOf x0) (ix2 r k')
      = ∑ k' : Fin 1024, Cert.Spec.centred f b r k' * Cert.Spec.centred f b r k' :=
    Finset.sum_congr rfl fun k' _ => by rw [mulf_apply, centredOf_apply x0 f b hx r k']
  rw [hs]

/-- THE BODY AT AN INDEX: when the block it loads is batch b of an array f, the block it stores holds, at (r, s), the
    inner product of the normalised rows r and s of that batch. -/
private theorem pay_apply (u : Fin 1) (r s : Fin 512) :
    k1_pay1 (F := Ideal) x0 (ix3 u r s) = Cert.Spec.gramAt f b r s := by
  rw [pay_eq]
  refine (shapeCast_ab_1ab_apply _ shapeCasts_S512x512_S1x512x512 u r s).trans ?_
  refine (gramMat_apply _ r s).trans ?_
  unfold Cert.Spec.gramAt
  refine Finset.sum_congr rfl fun k _ => ?_
  rw [truncf_apply, truncf_apply, unitOf_apply x0 f b hx r k, unitOf_apply x0 f b hx s k]

end AtBatch

/-! ## From blocks to the array -/

variable (V : (c : Dev nD) → (b : Ref sig .tc) → Buf (Elt Ideal) ((c : Thread nD τ).loc b))

private theorem zero_offsets : (![0, 0, 0] : Fin 3 → Nat) = fun _ => 0 := funext fun a => by fin_cases a <;> rfl

/-- The two index maps, decided over the 32 points: the block read and the block written at a point have the same
    index, a batch number below 32 followed by two zeros. -/
private theorem block_index : ∀ t : Fin cfg1.N, win1_0.index t (0 : Fin 3) = win1_1.index t (0 : Fin 3) + 0
    ∧ win1_0.index t (1 : Fin 3) = win1_1.index t (1 : Fin 3) + 0
    ∧ win1_0.index t (2 : Fin 3) = win1_1.index t (2 : Fin 3) + 0
    ∧ 0 ≤ win1_1.index t (0 : Fin 3) ∧ win1_1.index t (0 : Fin 3) ≤ 31
    ∧ 0 ≤ win1_1.index t (1 : Fin 3) ∧ win1_1.index t (1 : Fin 3) ≤ 0
    ∧ 0 ≤ win1_1.index t (2 : Fin 3) ∧ win1_1.index t (2 : Fin 3) ≤ 0 :=
  (by decide +kernel : ∀ t : Fin grid1.N, _)

/-- Every batch is some point's block. -/
private theorem block_onto : ∀ (q0 : Fin 32) (q1 : Fin 1) (q2 : Fin 1), ∃ t : Fin cfg1.N, win1_1.index t = ![q0.val + 0, q1.val + 0, q2.val + 0] :=
  (by decide +kernel : ∀ (q0 : Fin 32) (q1 : Fin 1) (q2 : Fin 1), ∃ t : Fin grid1.N, win1_1.index t = ![q0.val + 0, q1.val + 0, q2.val + 0])

/-- WHAT POINT t WRITES BACK is block t of the Gram matrices of the array the region reads. -/
private theorem flushed_eq (c : Dev nD) (t : Fin cfg1.N) :
    (dat1 (F := Ideal) V c).flushed 1 t
      = ((cfg1.win 1).blk t).view.read (Elt Ideal) (Cert.Spec.gram (V c main_v0)) := by
  show (cfg1.win 1).cut (grid1.coords t) ((dat1 (F := Ideal) V c).after 1 t) = _
  rw [after1_1]
  unfold out1_1
  rw [View.canon_unit_zero zero_offsets]
  simp only [View.ld_unit_zero (S := S1x512x1024) zero_offsets]
  obtain ⟨e0, e1, e2, e3, e4, e5, e6, e7, e8⟩ := block_index t
  have hb : win1_1.index t (0 : Fin 3) < 32 := by omega
  refine funext fun (j : S1x512x512.Idx) => ?_
  obtain ⟨u, r, s, rfl⟩ : ∃ (u : Fin 1) (r s : Fin 512), j = ix3 u r s := ⟨j 0, j 1, j 2, eq_ix3 j⟩
  show k1_pay1 (F := Ideal) (iblk1 V c 0 t) (ix3 u r s)
    = Cert.Spec.gram (V c main_v0) (((cfg1.win 1).blk t).view.emb (ix3 u r s))
  refine (pay_apply (iblk1 V c 0 t) (V c main_v0) ⟨win1_1.index t (0 : Fin 3), hb⟩ (fun r k => ?_) u r s).trans ?_
  · -- the block read at point t is batch t of the array
    show V c main_v0 (((cfg1.win 0).blk t).view.emb (ix3 (0 : Fin 1) r k))
      = V c main_v0 (ix3 (⟨win1_1.index t (0 : Fin 3), hb⟩ : Fin 32) r k)
    refine congrArg (V c main_v0) (funext fun a => Fin.ext ?_)
    match a with
    | ⟨0, _⟩ => show win1_0.index t (0 : Fin 3) * 1 + 1 * 0 = win1_1.index t (0 : Fin 3); omega
    | ⟨1, _⟩ => show win1_0.index t (1 : Fin 3) * 512 + 1 * r.val = r.val; omega
    | ⟨2, _⟩ => show win1_0.index t (2 : Fin 3) * 1024 + 1 * k.val = k.val; omega
  · -- and the block written sits at batch t, rows and columns unmoved
    have he : ((cfg1.win 1).blk t).view.emb (ix3 u r s) = ix3 (⟨win1_1.index t (0 : Fin 3), hb⟩ : Fin 32) r s := by
      funext a; apply Fin.ext
      have hu : u.val = 0 := by omega
      match a with
      | ⟨0, _⟩ => show win1_1.index t (0 : Fin 3) * 1 + 1 * u.val = win1_1.index t (0 : Fin 3); omega
      | ⟨1, _⟩ => show win1_1.index t (1 : Fin 3) * 512 + 1 * r.val = r.val; omega
      | ⟨2, _⟩ => show win1_1.index t (2 : Fin 3) * 512 + 1 * s.val = s.val; omega
    rw [he]
    rfl

/-- An index of the array is in point t's block iff each coordinate is in the block's range on its axis. -/
private theorem mem_blk (t : Fin cfg1.N) (i : S32x512x512.Idx) :
    i ∈ ((cfg1.win 1).blk t).view.set ↔ ∀ a : Fin 3, win1_1.index t a * S1x512x512.size a ≤ (i a).val ∧ (i a).val < win1_1.index t a * S1x512x512.size a + S1x512x512.size a := by
  show i ∈ ((View.whole main_v1).slice (win1_1.rect t)).set ↔ _
  rw [View.set_slice_whole, Rect.mem_set_unit]
  exact Iff.rfl

/-- The blocks tile the array: the index (b, r, s) lies in the block of the point whose batch is b. -/
private theorem covered (i : S32x512x512.Idx) :
    ∃ t : Fin cfg1.N, (cfg1.win 1).flush t = true ∧ i ∈ ((cfg1.win 1).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 1 - 0, by omega⟩ ⟨(i 1).val / 512 - 0, by omega⟩ ⟨(i 2).val / 512 - 0, by omega⟩
  have q0 : win1_1.index t (0 : Fin 3) = (i 0).val / 1 - 0 + 0 := congrFun ht 0
  have q1 : win1_1.index t (1 : Fin 3) = (i 1).val / 512 - 0 + 0 := congrFun ht 1
  have q2 : win1_1.index t (2 : Fin 3) = (i 2).val / 512 - 0 + 0 := congrFun ht 2
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 512 ≤ (i 1).val ∧ (i 1).val < win1_1.index t (1 : Fin 3) * 512 + 512; omega
  | ⟨2, _⟩ => show win1_1.index t (2 : Fin 3) * 512 ≤ (i 2).val ∧ (i 2).val < win1_1.index t (2 : Fin 3) * 512 + 512; omega

/-- After the second region, whatever contents `V` it was entered from, its output array holds the Gram matrices of
    the normalised rows of the array it reads. -/
theorem array_eq (c : Dev nD) :
    (dat1 (F := Ideal) V c).arrAt 1 cfg1.N = Cert.Spec.gram (V c main_v0) :=
  (dat1 (F := Ideal) V c).arrAt_eq_of_cover 1 (Cert.Spec.gram (V c main_v0)) (fun t _ => flushed_eq V c t) covered

end Cert.KernelIdeal.Region1

end
-- ==== Proof.KernelValue.lean ====
/-
  The kernel program's result as one function of its arguments: the second region's output array, entered from
  what the first region left, which was entered from the launch memory.
-/
import proofs.«159897_j1949915152710_1_alg».proof.Proof.Gen.KernelIdeal.Frame
import proofs.«159897_j1949915152710_1_alg».proof.Proof.Spec
import proofs.«159897_j1949915152710_1_alg».proof.Proof.LibKeepdims
import proofs.«159897_j1949915152710_1_alg».proof.Proof.Region0Value
import proofs.«159897_j1949915152710_1_alg».proof.Proof.Region1Value
import proofs.«159897_j1949915152710_1_alg».proof.Proof.KernelRun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The array the second region reads is the first region's output array, which that region fills from the
    launch contents of the four arguments it reads. -/
theorem stage_one_eq (c : Dev nD) :
    V1 m ρ c main_v0
      = Cert.Spec.scaled (m ((c : Thread nD τ).loc main_arg3)) (m ((c : Thread nD τ).loc main_arg4))
          (m ((c : Thread nD τ).loc main_arg5)) (m ((c : Thread nD τ).loc main_arg6)) :=
  (W1_arr m ρ c 4).trans (Cert.KernelIdeal.Region0.array_eq (V0 m ρ) c)

/-- The result buffer at the last boundary: the Gram matrices of the normalised rows of stage one. -/
theorem result_eq (c : Dev nD) :
    W2 m ρ c (Proc.devRef .tc main_v1)
      = Cert.Spec.gram (Cert.Spec.scaled (m ((c : Thread nD τ).loc main_arg3)) (m ((c : Thread nD τ).loc main_arg4))
          (m ((c : Thread nD τ).loc main_arg5)) (m ((c : Thread nD τ).loc main_arg6))) := by
  refine (W2_arr m ρ c 1).trans ?_
  rw [Cert.KernelIdeal.Region1.array_eq (V1 m ρ) c, stage_one_eq m ρ c]

end Cert.KernelIdeal.Whole

end
-- ==== Proof.RefGram.lean ====
/-
  The reference's second stage, read index by index. Row r of batch c of stage one is centred by its mean (the row
  sum from the zero word, divided by the word of 1024), multiplied by the reciprocal square root of its sum of
  squares, and the result is contracted with itself over the last axis. Each stage is read at explicit
  coordinates (c, r, k); the broadcasts through the kept axis of size one collapse to the row's value, so the
  entry (c, r, s) of the result is the inner product of the normalised rows r and s: the Gram matrix of the
  specification.
-/
import proofs.«159897_j1949915152710_1_alg».proof.Proof.Gen.ReferenceIdeal.Read
import proofs.«159897_j1949915152710_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefGram

open Cert.ReferenceIdeal Cert.ReferenceIdeal.Gen Cert.ReferenceIdeal.Read
open Idealize.ShloMosaic Idealize.ShloMosaic.TcCoe Idealize.ShloMosaic.ValueIdx Idealize.SL.Sem

/-! ### The index maps of the layout operations, at explicit coordinates -/

/-- A row sum inserts the summation coordinate last. -/
private theorem idx26_at (c : Fin 32) (r : Fin 512) (k : Fin 1024) : idx_main_v26 (ix2 c r) k = ix3 c r k :=
  funext fun a => Fin.ext (by match a with | ⟨0, _⟩ => rfl | ⟨1, _⟩ => rfl | ⟨2, _⟩ => rfl)

private theorem idx33_at (c : Fin 32) (r : Fin 512) (k : Fin 1024) : idx_main_v33 (ix2 c r) k = ix3 c r k :=
  funext fun a => Fin.ext (by match a with | ⟨0, _⟩ => rfl | ⟨1, _⟩ => rfl | ⟨2, _⟩ => rfl)

/-- The kept axis of size one is dropped. -/
private theorem idx27_at (c : Fin 32) (r : Fin 512) (u : Fin 1) : idx_main_v27 (ix3 c r u) = ix2 c r :=
  funext fun a => Fin.ext (by match a with | ⟨0, _⟩ => rfl | ⟨1, _⟩ => rfl)

private theorem idx34_at (c : Fin 32) (r : Fin 512) (u : Fin 1) : idx_main_v34 (ix3 c r u) = ix2 c r :=
  funext fun a => Fin.ext (by match a with | ⟨0, _⟩ => rfl | ⟨1, _⟩ => rfl)

/-- A broadcast along the last axis reads the column at its only entry. -/
private theorem idx30_at (c : Fin 32) (r : Fin 512) (k : Fin 1024) : idx_main_v30 (ix3 c r k) = ix3 c r (0 : Fin 1) :=
  funext fun a => Fin.ext (by match a with | ⟨0, _⟩ => rfl | ⟨1, _⟩ => rfl | ⟨2, _⟩ => rfl)

private theorem idx36_at (c : Fin 32) (r : Fin 512) (k : Fin 1024) : idx_main_v36 (ix3 c r k) = ix3 c r (0 : Fin 1) :=
  funext fun a => Fin.ext (by match a with | ⟨0, _⟩ => rfl | ⟨1, _⟩ => rfl | ⟨2, _⟩ => rfl)

/-- The contraction reads row r on the left and row s on the right, both at column k. -/
private theorem lidx38_at (c : Fin 32) (r s : Fin 512) (k : Fin 1024) : lidx_main_v38 (ix3 c r s) k = ix3 c r k :=
  funext fun a => Fin.ext (by match a with | ⟨0, _⟩ => rfl | ⟨1, _⟩ => rfl | ⟨2, _⟩ => rfl)

private theorem ridx38_at (c : Fin 32) (r s : Fin 512) (k : Fin 1024) : ridx_main_v38 (ix3 c r s) k = ix3 c s k :=
  funext fun a => Fin.ext (by match a with | ⟨0, _⟩ => rfl | ⟨1, _⟩ => rfl | ⟨2, _⟩ => rfl)

/-! ### The stages at explicit coordinates -/

section stages

variable (x3 x4 x5 : (⟨S32x512x512, .f32⟩ : BufTy).Contents (Elt Ideal)) (x6 : (⟨S32x512x1024, .f32⟩ : BufTy).Contents (Elt Ideal))

/-- The quotient column holds the mean of the row. -/
private theorem v29_at (c : Fin 32) (r : Fin 512) (u : Fin 1) :
    val_main_v29 (F := Ideal) x3 x4 x5 x6 (ix3 c r u) = Cert.Spec.rowMean (val_main_v25 (F := Ideal) x3 x4 x5 x6) c r := by
  rw [val_main_v29_apply, val_main_v27_apply, val_main_v28_apply, val_main_cst_2_apply, idx27_at, val_main_v26_apply,
    val_main_cst_1_apply]
  simp only [idx26_at, Ideal.hostDivf_def, Ideal.ofBits_def, Ideal.ofBits_zero_f32, zero_add]
  rfl

/-- The difference holds the centred row. -/
private theorem v31_at (c : Fin 32) (r : Fin 512) (k : Fin 1024) :
    val_main_v31 (F := Ideal) x3 x4 x5 x6 (ix3 c r k) = Cert.Spec.centred (val_main_v25 (F := Ideal) x3 x4 x5 x6) c r k := by
  rw [val_main_v31_apply, val_main_v30_apply, idx30_at, v29_at, Ideal.subf_def]
  rfl

/-- The reciprocal-square-root column holds that of the row's sum of squares. -/
private theorem v35_at (c : Fin 32) (r : Fin 512) (u : Fin 1) :
    val_main_v35 (F := Ideal) x3 x4 x5 x6 (ix3 c r u)
      = Ideal.rsqrt (∑ k' : Fin 1024, Cert.Spec.centred (val_main_v25 (F := Ideal) x3 x4 x5 x6) c r k'
          * Cert.Spec.centred (val_main_v25 (F := Ideal) x3 x4 x5 x6) c r k') := by
  rw [val_main_v35_apply, val_main_v34_apply, idx34_at, val_main_v33_apply, val_main_cst_3_apply]
  simp only [idx33_at, val_main_v32_apply, v31_at, Ideal.hostUnary_rsqrt_def, Ideal.mulf_def, Ideal.ofBits_def,
    Ideal.ofBits_zero_f32, zero_add]

/-- The product holds the normalised row. -/
private theorem v37_at (c : Fin 32) (r : Fin 512) (k : Fin 1024) :
    val_main_v37 (F := Ideal) x3 x4 x5 x6 (ix3 c r k) = Cert.Spec.unitRow (val_main_v25 (F := Ideal) x3 x4 x5 x6) c r k := by
  rw [val_main_v37_apply, val_main_v36_apply, idx36_at, v35_at, v31_at, Ideal.mulf_def]
  rfl

end stages

/-- The reference's result is the Gram matrix of the normalised rows of its own stage one. -/
theorem tail_eq (x3 x4 x5 : (⟨S32x512x512, .f32⟩ : BufTy).Contents (Elt Ideal)) (x6 : (⟨S32x512x1024, .f32⟩ : BufTy).Contents (Elt Ideal)) :
    val_main_v38 (F := Ideal) x3 x4 x5 x6 = Cert.Spec.gram (val_main_v25 (F := Ideal) x3 x4 x5 x6) := by
  funext i
  obtain ⟨c, r, s, rfl⟩ : ∃ (c : Fin 32) (r s : Fin 512), i = ix3 c r s := ⟨i 0, i 1, i 2, eq_ix3 i⟩
  rw [val_main_v38_apply, Cert.Spec.gram_apply]
  simp only [lidx38_at, ridx38_at, v37_at]
  rfl

end Cert.ReferenceIdeal.RefGram

end
-- ==== Proof.RefScaled.lean ====
/-
  The reference's first stage, read index by index: at (c, r, k) it is 0.3 · (d(c, r) · x(c, r, k)) + x(c, r, k),
  where d(c, r) is the (r, r) entry of (Pb · Ev) · W in batch c.
  The two iotas' compare, converted to a real, is the 0/1 mask [r = j]: row and column numbers below 512 have distinct
  32-bit words, and adding the zero word changes nothing. The two contractions give the (r, l) entry of the triple
  product; multiplied by the mask and contracted with x, the sum over the middle index keeps only its diagonal term
  (x · 0 = 0 on every extended real), leaving d(c, r) · x(c, r, k). The last two pointwise stages scale by 0.3 and add x.
-/
import proofs.«159897_j1949915152710_1_alg».proof.Proof.Gen.ReferenceIdeal.Read
import proofs.«159897_j1949915152710_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

open scoped BigOperators

namespace Cert.ReferenceIdeal.RefScaled

open Cert.ReferenceIdeal Cert.ReferenceIdeal.Gen Cert.ReferenceIdeal.Read
open Idealize.ShloMosaic Idealize.ShloMosaic.TcCoe Idealize.ShloMosaic.ValueIdx Idealize.SL.Sem

/-- Two row or column numbers below 512 with the same 32-bit word are equal. -/
private theorem word_inj (r j : Fin 512) (h : BitVec.ofNat 32 r.val = BitVec.ofNat 32 j.val) : r = j := by
  have h' := congrArg BitVec.toNat h
  simp only [BitVec.toNat_ofNat] at h'
  have hr := r.isLt
  have hj := j.isLt
  exact Fin.ext (by omega)

/-- The compare of the row number (plus the zero word) with the column number, read as a real: 1 on the diagonal, 0 off it. -/
private theorem mask_at (r j : Fin 512) :
    val_main_v16 (F := Ideal) (ix2 r j) = if r = j then (1 : EReal) else 0 := by
  rw [val_main_v16_apply, val_main_v15_apply, val_main_v14_apply, val_main_v11_apply, val_main_v12_apply,
    val_main_v13_apply, val_main_c_0_apply]
  show (((IntOp.cmpi .eq (IntOp.addi (BitVec.ofNat 32 r.val) 0#32) (BitVec.ofNat 32 j.val)).toNat : ℝ) : EReal) = _
  have hadd : IntOp.addi (BitVec.ofNat 32 r.val) 0#32 = BitVec.ofNat 32 r.val := by
    unfold IntOp.addi; exact BitVec.add_zero _
  rw [hadd]
  by_cases hrj : r = j
  · subst hrj
    rw [if_pos rfl, StableHlo.Predicate.cmpi_eq_iff.mpr rfl]
    norm_num
  · rw [if_neg hrj]
    have hne : IntOp.cmpi .eq (BitVec.ofNat 32 r.val) (BitVec.ofNat 32 j.val) ≠ 1#1 :=
      fun h => hrj (word_inj r j (StableHlo.Predicate.cmpi_eq_iff.mp h))
    rcases BitVec.eq_zero_or_eq_one (IntOp.cmpi .eq (BitVec.ofNat 32 r.val) (BitVec.ofNat 32 j.val)) with h0 | h1
    · rw [h0]; norm_num
    · exact absurd h1 hne

/-- The second contraction at (c, r, l): the (r, l) entry of (Pb · Ev) · W in batch c, with the factors in the
    order the contractions list them. -/
private theorem v18_at (x3 x4 x5 : (⟨S32x512x512, .f32⟩ : BufTy).Contents (Elt Ideal)) (c : Fin 32) (r l : Fin 512) :
    val_main_v18 (F := Ideal) x3 x4 x5 (ix3 c r l)
      = ∑ k : Fin 512, (∑ j : Fin 512, x4 (ix3 c j k) * x3 (ix3 c r j)) * x5 (ix3 c k l) := by
  rw [val_main_v18_apply]
  refine Finset.sum_congr rfl fun k _ => ?_
  have e1 : lidx_main_v18 (ix3 c r l) k = ix3 c k r :=
    funext fun a => Fin.ext (by match a with | ⟨0, _⟩ => rfl | ⟨1, _⟩ => rfl | ⟨2, _⟩ => rfl)
  have e2 : ridx_main_v18 (ix3 c r l) k = ix3 c k l :=
    funext fun a => Fin.ext (by match a with | ⟨0, _⟩ => rfl | ⟨1, _⟩ => rfl | ⟨2, _⟩ => rfl)
  rw [e1, e2, val_main_v17_apply]
  refine congrArg (· * x5 (ix3 c k l)) (Finset.sum_congr rfl fun j _ => ?_)
  have e3 : lidx_main_v17 (ix3 c k r) j = ix3 c j k :=
    funext fun a => Fin.ext (by match a with | ⟨0, _⟩ => rfl | ⟨1, _⟩ => rfl | ⟨2, _⟩ => rfl)
  have e4 : ridx_main_v17 (ix3 c k r) j = ix3 c r j :=
    funext fun a => Fin.ext (by match a with | ⟨0, _⟩ => rfl | ⟨1, _⟩ => rfl | ⟨2, _⟩ => rfl)
  rw [e3, e4]

/-- The masked product at (c, r, k): the entry of the second contraction times the mask at (r, k). -/
private theorem v21_at (x3 x4 x5 : (⟨S32x512x512, .f32⟩ : BufTy).Contents (Elt Ideal)) (c : Fin 32) (r k : Fin 512) :
    val_main_v21 (F := Ideal) x3 x4 x5 (ix3 c r k)
      = val_main_v18 (F := Ideal) x3 x4 x5 (ix3 c r k) * (if r = k then (1 : EReal) else 0) := by
  rw [val_main_v21_apply, val_main_v20_apply, val_main_v19_apply, Ideal.mulf_def]
  have e : idx_main_v19 (idx_main_v20 (ix3 c r k)) = ix2 r k :=
    funext fun a => Fin.ext (by match a with | ⟨0, _⟩ => rfl | ⟨1, _⟩ => rfl)
  rw [e, mask_at]

/-- The third contraction at (c, r, col): the mask keeps the diagonal term of the sum over k. -/
private theorem v22_at (x3 x4 x5 : (⟨S32x512x512, .f32⟩ : BufTy).Contents (Elt Ideal))
    (x6 : (⟨S32x512x1024, .f32⟩ : BufTy).Contents (Elt Ideal)) (c : Fin 32) (r : Fin 512) (col : Fin 1024) :
    val_main_v22 (F := Ideal) x3 x4 x5 x6 (ix3 c r col)
      = val_main_v18 (F := Ideal) x3 x4 x5 (ix3 c r r) * x6 (ix3 c r col) := by
  rw [val_main_v22_apply]
  refine Eq.trans (Finset.sum_congr rfl fun k _ => ?_)
    (Cert.Spec.sum_mask_mul (fun k => val_main_v18 (F := Ideal) x3 x4 x5 (ix3 c r k)) (fun k => x6 (ix3 c k col)) r)
  have e1 : lidx_main_v22 (ix3 c r col) k = ix3 c r k :=
    funext fun a => Fin.ext (by match a with | ⟨0, _⟩ => rfl | ⟨1, _⟩ => rfl | ⟨2, _⟩ => rfl)
  have e2 : ridx_main_v22 (ix3 c r col) k = ix3 c k col :=
    funext fun a => Fin.ext (by match a with | ⟨0, _⟩ => rfl | ⟨1, _⟩ => rfl | ⟨2, _⟩ => rfl)
  rw [e1, e2, v21_at]

/-- The reference's stage one is 0.3 · (d · x) + x with d the diagonal of (Pb · Ev) · W. -/
theorem head_eq (x3 x4 x5 : (⟨S32x512x512, .f32⟩ : BufTy).Contents (Elt Ideal)) (x6 : (⟨S32x512x1024, .f32⟩ : BufTy).Contents (Elt Ideal)) :
    val_main_v25 (F := Ideal) x3 x4 x5 x6 = Cert.Spec.scaledRef x3 x4 x5 x6 := by
  funext i
  obtain ⟨c, r, k, rfl⟩ : ∃ (c : Fin 32) (r : Fin 512) (k : Fin 1024), i = ix3 c r k := ⟨i 0, i 1, i 2, eq_ix3 i⟩
  rw [Cert.Spec.scaledRef_apply, val_main_v25_apply, val_main_v24_apply, val_main_v23_apply, val_main_cst_apply,
    v22_at, v18_at, Ideal.addf_def, Ideal.mulf_def, Ideal.ofBits_def]
  rfl

end Cert.ReferenceIdeal.RefScaled

end
-- ==== Proof.Algebra.lean ====
/-
  The two bracketings of stage one agree on real entries: 0.3 · (d' · x) + x = x · (1 + 0.3 · d), where d and d' are
  the (r, r) entries of Pb · (Ev · W) and (Pb · Ev) · W. Every entry and the constant 0.3 (a finite single-precision
  word) is the coercion of a real number, and the coercion ℝ → EReal commutes with products, sums and finite sums,
  so the identity is pulled back to ℝ. There both diagonals are the double sum over (a, b) of P r a · E a b · W b r
  (exchange the two sums), and the outer identity is distributivity.
-/
import proofs.«159897_j1949915152710_1_alg».proof.Proof.Spec

noncomputable section

open scoped BigOperators

namespace Cert.Spec

open Idealize.ShloMosaic Idealize.ShloMosaic.ValueIdx

/-- The coercion of the reals into the extended reals commutes with finite sums. -/
private theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The single-precision word of 0.3 has an exponent field below 255, so its value is a real number. -/
private theorem c03_real : ∃ q : ℝ, c03 = (q : EReal) := by
  have h : ((0x3E99999A#32 : BitVec 32).extractLsb' 23 8).toNat ≠ 2 ^ 8 - 1 := by decide
  show ∃ q : ℝ, Ideal.ieee 8 23 (0x3E99999A#32 : BitVec 32) = (q : EReal)
  unfold Ideal.ieee
  simp only []
  rw [if_neg h]
  split_ifs <;> exact ⟨_, rfl⟩

/-- Over the reals, the (r, r) entries of (P · E) · W and of P · (E · W) agree: both are the sum over (a, b) of
    P r a · E a b · W b r. -/
private theorem diag_real {n : ℕ} (P E W : Fin n → Fin n → ℝ) (r : Fin n) :
    ∑ k, (∑ j, E j k * P r j) * W k r = ∑ a, P r a * ∑ b, E a b * W b r := by
  simp only [Finset.sum_mul, Finset.mul_sum]
  rw [Finset.sum_comm]
  refine Finset.sum_congr rfl fun a _ => Finset.sum_congr rfl fun b _ => ?_
  ring

/-- The stage-one identity at one point, for coerced real data. -/
private theorem point_real {n : ℕ} (q x : ℝ) (P E W : Fin n → Fin n → ℝ) (r : Fin n) :
    (q : EReal) * ((∑ k, (∑ j, (E j k : EReal) * (P r j : EReal)) * (W k r : EReal)) * (x : EReal)) + (x : EReal)
      = (x : EReal) * (1 + (q : EReal) * ∑ a, (P r a : EReal) * ∑ b, (E a b : EReal) * (W b r : EReal)) := by
  simp only [← EReal.coe_mul, ← coe_finsum, ← EReal.coe_add, ← EReal.coe_one]
  rw [diag_real P E W r]
  congr 1
  ring

/-- On arrays all of whose entries are real numbers, 0.3 · (d' · x) + x = x · (1 + 0.3 · d), where d and d' are the
    (r, r) entries of Pb · (Ev · W) and (Pb · Ev) · W. -/
theorem scaledRef_eq_scaled (pb ev w : Sq) (feat : Wide)
    (hpb : ∀ i, ∃ x : ℝ, pb i = (x : EReal)) (hev : ∀ i, ∃ x : ℝ, ev i = (x : EReal))
    (hw : ∀ i, ∃ x : ℝ, w i = (x : EReal)) (hfeat : ∀ i, ∃ x : ℝ, feat i = (x : EReal)) :
    scaledRef pb ev w feat = scaled pb ev w feat := by
  choose P hP using hpb
  choose E hE using hev
  choose W hW using hw
  choose F hF using hfeat
  obtain ⟨q, hq⟩ := c03_real
  have key : ∀ (c : Fin 32) (r : Fin 512) (k : Fin 1024),
      scaledRef pb ev w feat (ix3 c r k) = scaled pb ev w feat (ix3 c r k) := by
    intro c r k
    rw [scaledRef_apply, scaled_apply]
    unfold scaledRefAt scaledAt diagLeft diagRight
    simp only [hP, hE, hW, hF, hq]
    exact point_real q (F (ix3 c r k)) (fun a b => P (ix3 c a b)) (fun a b => E (ix3 c a b))
      (fun a b => W (ix3 c a b)) r
  funext i
  rw [eq_ix3 i]
  exact key (i 0) (i 1) (i 2)

end Cert.Spec

end
-- ==== Proof.Finite.lean ====
/-
  The precondition makes every entry of the four arrays the programs read a real number.
  The printed predicate is a conjunction of seven bits, one per array: "|x| < +∞ at every entry", taken as a
  reduction by `and` over all axes. A conjunction that is 1 has every conjunct 1; a reduction by `and` into a
  single index that is 1 had a 1 at every entry; and an extended real whose absolute value max x (-x) lies
  strictly below ⊤ is neither ⊥ nor ⊤, hence the coercion of a real.
-/
import proofs.«159897_j1949915152710_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Real

open Cert.Pre_finite_inputs Idealize.ShloMosaic Idealize.ShloMosaic.ValueIdx

/-- The binary32 word with exponent all ones and fraction zero denotes +∞. -/
private theorem inf_word : Ideal.ofBits .f32 0x7F800000#32 = (⊤ : EReal) := by
  simp [Ideal.ofBits, Ideal.ieee]

/-- A bit made from a Boolean is 1 exactly when the Boolean is true. -/
private theorem ofBool_one {b : Bool} : BitVec.ofBool b = 1#1 ↔ b = true := by cases b <;> decide

/-- An extended real with |x| < +∞ (the ordered comparison gives the bit 1) is a real: at ⊥ and at ⊤ the
    absolute value max x (-x) is ⊤, which is not below ⊤. -/
private theorem entry_real (x : EReal)
    (h : FloatOps.cmpf (F := Ideal) (φ := .f32) .olt (FloatOps.hostAbsf x) (FloatOps.ofBits .f32 0x7F800000#32) = 1#1) :
    ∃ r : ℝ, x = (r : EReal) := by
  have h' : max x (-x) < (⊤ : EReal) := by
    have h2 : Ideal.cmp .olt (max x (-x)) (Ideal.ofBits .f32 0x7F800000#32) = 1#1 := h
    rw [inf_word] at h2
    simpa [Ideal.cmp, ofBool_one] using h2
  induction x using EReal.rec with
  | bot => simp at h'
  | coe r => exact ⟨r, rfl⟩
  | top => simp at h'

/-- The rank-0 shape has exactly one index. -/
private instance : Subsingleton S_.Idx := ⟨fun a b => funext fun d => d.elim0⟩

/-- For an array of any shape: if the reduction by `and` over all axes of the bits "|a i| < +∞" is 1,
    every entry of the array is a real number. -/
private theorem all_real {s : Shape} {axes : List (Fin s.rank)} (hr : s.ReducesTo axes S_)
    (hb : S_.BroadcastsInDim s (![] : Fin 0 → Fin s.rank)) (hu : 0 < S_.numel)
    (a : FVec Ideal s .f32) (init : IVec S_ 1)
    (e : Host.reduce IntOp.andi
        (cmpf .olt (Host.absf a) (broadcastInDim s ![] hb (constant (F := Ideal) S_ .f32 0x7F800000#32))) init hr hu ix0 = 1#1)
    (i : s.Idx) : ∃ r : ℝ, a i = (r : EReal) :=
  entry_real (a i) (Host.reduce_andi_all _ init hr hu ix0 e i)

/-- If the precondition's function is all ones on seven arrays, every entry of the last four is a real number. -/
theorem real_of_pre [Cert.Pre_finite_inputs.Facts]
    (a0 a1 a2 : FVec Ideal S32x48x48 .f32) (a3 a4 a5 : FVec Ideal S32x512x512 .f32) (a6 : FVec Ideal S32x512x1024 .f32)
    (h : Cert.Pre_finite_inputs.fn (F := Ideal) a0 a1 a2 a3 a4 a5 a6 = fun _ => 1#1) :
    (∀ i, ∃ x : ℝ, a3 i = (x : EReal)) ∧ (∀ i, ∃ x : ℝ, a4 i = (x : EReal))
      ∧ (∀ i, ∃ x : ℝ, a5 i = (x : EReal)) ∧ (∀ i, ∃ x : ℝ, a6 i = (x : EReal)) := by
  -- the result at its one index, with the chain of seven conjuncts in view
  have h0 := congrFun h ix0
  dsimp only [fn, fn_part1, andi] at h0
  -- the conjunction is nested to the left: peel the last four conjuncts off, newest first
  obtain ⟨h1, e6⟩ := IntOp.andi_eq_one.1 h0
  obtain ⟨h2, e5⟩ := IntOp.andi_eq_one.1 h1
  obtain ⟨h3, e4⟩ := IntOp.andi_eq_one.1 h2
  obtain ⟨_, e3⟩ := IntOp.andi_eq_one.1 h3
  exact ⟨all_real _ _ _ a3 _ e3, all_real _ _ _ a4 _ e4, all_real _ _ _ a5 _ e5, all_real _ _ _ a6 _ e6⟩

end Cert.Pre_finite_inputs.Real

end
-- ==== Proof.lean ====
/-
  The kernel computes, per batch c, F = feat · (1 + 0.3 · d) row by row, d(c, r) the (r, r) entry of Pb · (Ev · W),
  and then the Gram matrix of the rows of F after each is centred by its mean and scaled by the reciprocal square root
  of its sum of squares. The reference computes 0.3 · (D · feat) + feat with D the diagonal part of (Pb · Ev) · W, and
  then the same normalised Gram matrix. (The products of the three 48 × 48 stacks enter neither result.)

  On the extended reals the second stage is one function of F on both sides, so equal results follow from equal F.
  The masks that select the diagonal collapse exactly (x · 0 = 0 for every extended real). What is left is
  x · (1 + 0.3 · d) = 0.3 · (d' · x) + x with d and d' the two bracketings of the triple product's diagonal: this is
  distributivity and associativity of sums of products, true of real numbers and false at infinities, so it uses the
  precondition that every input entry is finite.

  The frames of the two kernel programs are the generated ones; the reference's frame is its run with the result
  dropped. The idealization rewrote nothing, so `preserves` asks nothing.
-/
import proofs.«159897_j1949915152710_1_alg».proof.Defs
import proofs.«159897_j1949915152710_1_alg».proof.Proof.Gen.Kernel
import proofs.«159897_j1949915152710_1_alg».proof.Proof.Gen.Kernel.Skeleton
import proofs.«159897_j1949915152710_1_alg».proof.Proof.Gen.Kernel.Launch
import proofs.«159897_j1949915152710_1_alg».proof.Proof.Gen.Kernel.Points
import proofs.«159897_j1949915152710_1_alg».proof.Proof.Gen.Kernel.Frame
import proofs.«159897_j1949915152710_1_alg».proof.Proof.Gen.KernelIdeal
import proofs.«159897_j1949915152710_1_alg».proof.Proof.Gen.KernelIdeal.Skeleton
import proofs.«159897_j1949915152710_1_alg».proof.Proof.Gen.KernelIdeal.Launch
import proofs.«159897_j1949915152710_1_alg».proof.Proof.Gen.KernelIdeal.Points
import proofs.«159897_j1949915152710_1_alg».proof.Proof.Gen.KernelIdeal.Frame
import proofs.«159897_j1949915152710_1_alg».proof.Proof.Gen.ReferenceIdeal
import proofs.«159897_j1949915152710_1_alg».proof.Proof.Gen.Pre_finite_inputs
import proofs.«159897_j1949915152710_1_alg».proof.Proof.Gen.ReferenceIdeal.Run
import proofs.«159897_j1949915152710_1_alg».proof.Proof.Gen.ReferenceIdeal.Read
import proofs.«159897_j1949915152710_1_alg».proof.Proof.KernelRun
import proofs.«159897_j1949915152710_1_alg».proof.Proof.KernelValue
import proofs.«159897_j1949915152710_1_alg».proof.Proof.RefGram
import proofs.«159897_j1949915152710_1_alg».proof.Proof.RefScaled
import proofs.«159897_j1949915152710_1_alg».proof.Proof.Algebra
import proofs.«159897_j1949915152710_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the Gram matrices of the normalised rows of `feat` scaled row by row: the kernel by its two
    regions read in turn, the reference by its stages read at an index, the two scalings equal because the inputs
    are real. -/
theorem algebraic : Cert.algebraic_KernelIdeal_ReferenceIdeal := by
  intro m ρ m' ρ' hpre hagree
  refine ⟨fun c => Cert.Spec.gram (Cert.Spec.scaled (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.Whole.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨_, _, _, e3, e4, e5, e6⟩ := hagree c
    obtain ⟨h3, h4, h5, h6⟩ := Cert.Pre_finite_inputs.Real.real_of_pre _ _ _ _ _ _ _ (hpre c)
    rw [Cert.ReferenceIdeal.Read.val_main_v38_eq, Cert.ReferenceIdeal.RefGram.tail_eq,
      Cert.ReferenceIdeal.RefScaled.head_eq, e3, e4, e5, e6]
    exact congrArg Cert.Spec.gram (Cert.Spec.scaledRef_eq_scaled _ _ _ _ h3 h4 h5 h6)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
